-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : IVec S4096x8192 32) (main_arg2 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4096x8192 : Shape := ⟨2, ![4096, 8192]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096x1, .f32⟩
  | .hbm, ⟨4, _⟩ => ⟨S4096x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S4096x1 : S4096.ShapeCasts S4096x1
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .i32 = 32 ∨ (Rect.block (s := S4096x8192) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096 : Shape := ⟨1, ![4096]⟩
abbrev S4096x1 : Shape := ⟨2, ![4096, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .i32⟩
  | .hbm, ⟨12, _⟩ => ⟨S4096x8192, .i32⟩
  | .hbm, ⟨13, _⟩ => ⟨S4096x8192, .i1⟩
  | .hbm, ⟨14, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)

variable [Facts₀]

class Facts : Prop extends Facts₀ where

variable [Facts]
-- ==== Proof.Loss.lean ====
/-
  The weighted binary cross-entropy, element by element, on the extended reals.

  For a prediction `p`, the weight `w` of its row and an integer label `l`, one element of the loss is
      -log(1 + (-p))     where l = 0,
      -(w · log p)       at every other label.
  A kernel writes each of the three negations as the difference `0 - x`; a host program writes it as a negation.
  On the extended reals `0 - x = -x` for every `x`, the two infinities included, so the two spellings denote the
  same value and nothing is asked of the inputs: no finiteness, no range of `p`. The logarithms are the same
  extended-real functions on both sides, and the product `w · log p` has its factors in the same order.
-/
import Idealize.ShloMosaic.Lib.KernelVsHost
import Idealize.ShloMosaic.Lib.StableHlo.Predicate

noncomputable section

namespace Cert.WeightedBce

open Idealize.ShloMosaic Idealize.ShloMosaic.ValueIdx

/-- One element of the loss: `-log(1 - p)` under the label 0, `-(w · log p)` under any other label. -/
def elem (p w : EReal) (l : BitVec 32) : EReal :=
  if l = 0#32 then -(Ideal.log1p (-p)) else -(w * Ideal.log p)

/-- Negations written as differences from the zero word, the choice made by comparing the label's word with the
    zero word: each `0 - x` is `-x`, and the comparison's bit is set exactly when the label is 0. -/
theorem elem_of_differences (p w : Ideal .f32) (l : BitVec 32) :
    Scalar.select (IntOp.cmpi .eq l 0#32)
      (FloatOps.subf (Scalar.ofBits .f32 0x00000000#32) (FloatOps.log1p (FloatOps.subf (Scalar.ofBits .f32 0x00000000#32) p)))
      (FloatOps.subf (Scalar.ofBits .f32 0x00000000#32) (FloatOps.mulf w (FloatOps.log p)))
    = elem p w l := by
  simp only [Ideal.subf_zero_eq_hostNegf]
  exact if_congr StableHlo.Predicate.cmpi_eq_iff rfl rfl

/-- Negations written as negations, the logarithms as the host's unary operations: the same element. -/
theorem elem_of_negations (p w : Ideal .f32) (l : BitVec 32) :
    Scalar.select (IntOp.cmpi .eq l 0#32)
      (FloatOps.hostNegf (FloatOps.hostUnary .log1p (FloatOps.hostNegf p)))
      (FloatOps.hostNegf (FloatOps.mulf w (FloatOps.hostUnary .log p)))
    = elem p w l :=
  if_congr StableHlo.Predicate.cmpi_eq_iff rfl rfl

/-- The loss array over 4096 rows of 8192 predictions: entry (i, j) is the element of the prediction and the
    label at (i, j) and of the weight of row i. -/
def loss (pred : (⟨2, ![4096, 8192]⟩ : Shape).Idx → EReal) (lab : (⟨2, ![4096, 8192]⟩ : Shape).Idx → BitVec 32)
    (w : (⟨1, ![4096]⟩ : Shape).Idx → EReal) : (⟨2, ![4096, 8192]⟩ : Shape).Idx → EReal :=
  fun i => elem (pred i) (w (ix1 (i 0 : Fin 4096))) (lab i)

end Cert.WeightedBce

end
-- ==== Proof.KernelArray.lean ====
/-
  The array the kernel leaves, as one function of the argument arrays.

  The grid has 8 x 8 points. Point (a, b) stages rows 512·a … 512·a + 511 and columns 1024·b … 1024·b + 1023 of the
  predictions and of the labels, and rows 512·a … 512·a + 511 of the weight column (the host has re-laid the
  weight vector as a 4096 x 1 column before the call); it writes back the same rows and columns of the result.
  Inside a block the body computes entry (r, s) from the prediction and the label at (r, s) and from the weight
  at (r, 0): the loss element of `Loss.lean`, its negations spelt as differences from zero. Hence entry (i, j)
  of what point (a, b) writes back is the loss element of the prediction and label at (i, j) and of the weight of
  row i, whichever point covers it; the 64 blocks tile the array, so the whole result array is `WeightedBce.loss`.
-/
import proofs.«153647_j70128226009669_1_alg».proof.Proof.Gen.KernelIdeal.Value
import proofs.«153647_j70128226009669_1_alg».proof.Proof.Loss
import Idealize.ShloMosaic.Lib.ValueIdx
import Idealize.ShloMosaic.Lib.Pipeline.Value
import Idealize.ShloMosaic.Lib.StableHlo.Run

noncomputable section

namespace Cert.KernelIdeal.LossArray

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The weight column -/

/-- The column the region stages as its third operand is the weight vector re-laid 4096 x 1: its entry (a, 0)
    is the weight of row a. -/
theorem weightColumn_apply (c : Dev nD) (k : S4096x1.Idx) :
    (V m c main_v0 : S4096x1.Idx → EReal) k = (m ((c : Thread nD τ).loc main_arg2) : S4096.Idx → EReal) (ix1 (k 0 : Fin 4096)) := by
  have e : (V m c main_v0 : S4096x1.Idx → EReal)
      = shapeCast S4096x1 (m ((c : Thread nD τ).loc main_arg2) : S4096.Idx → EReal) shapeCasts_S4096_S4096x1 := by
    dsimp only [Gen.V, Gen.hostOps0]; after_results; rfl
  rw [e]
  refine shapeCast_apply _ _ k (ix1 (k 0 : Fin 4096)) ?_
  rw [Shape.rowMajor_val_one, Shape.rowMajor_val_two]
  have h1 : (k 1).val < 1 := (k 1).isLt
  show (k 0).val = (k 0).val * 1 + (k 1).val
  omega

/-! ## One block -/

theorem zeroOffsets : (![0, 0] : Fin 2 → Nat) = fun _ => 0 := funext fun a => by fin_cases a <;> rfl

/-- What the body leaves in the result's staging buffer, at entry `y` of the block: the loss element of the
    staged prediction and label at `y` and of the staged weight column at (y 0, 0). Stated over arbitrary staged
    contents. -/
theorem block_apply (x0 : Vec Ideal S512x1024 .f32) (x1 : Vec Ideal S512x1024 .i32) (x2 : Vec Ideal S512x1 .f32)
    (y : S512x1024.Idx) :
    out0_3 x0 x1 x2 y = WeightedBce.elem (x0 y) (x2 (ix2 (y 0 : Fin 512) (0 : Fin 1))) (x1 y) := by
  obtain ⟨p, q, rfl⟩ : ∃ (p : Fin 512) (q : Fin 1024), y = ix2 p q := ⟨y 0, y 1, eq_ix2 y⟩
  have h0 : Value.ix3_0 (ix2 p q) = ix2 p q := funext fun a => match a with | ⟨0, _⟩ => rfl | ⟨1, _⟩ => rfl
  have h1 : Value.ix3_1 (ix2 p q) = ix2 p q := funext fun a => match a with | ⟨0, _⟩ => rfl | ⟨1, _⟩ => rfl
  have h2 : Value.ix3_2 (ix2 p q) = ix2 p (0 : Fin 1) := funext fun a => match a with | ⟨0, _⟩ => rfl | ⟨1, _⟩ => rfl
  have h3 : Value.ix3_3 (ix2 p q) = ix2 p q := funext fun a => match a with | ⟨0, _⟩ => rfl | ⟨1, _⟩ => rfl
  unfold out0_3
  rw [Value.canon3_eq]
  simp only [View.ld_unit_zero (S := S512x1024) zeroOffsets, View.ld_unit_zero (S := S512x1) zeroOffsets]
  dsimp only [Value.E3]
  rw [h0, h1, h2, h3]
  exact WeightedBce.elem_of_differences _ _ _

/-! ## The index maps over the grid -/

/-- Decided over the 64 points: the predictions', the labels' and the result's blocks sit at the same block
    indices; the weight column's block sits at the result's row index and at column 0; both of the result's
    block indices are below 8. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = 0
    ∧ win0_3.index t (0 : Fin 2) ≤ 7 ∧ win0_3.index t (1 : Fin 2) ≤ 7 :=
  (by decide +kernel : ∀ t : Fin grid0.N, _)

/-- Every pair of block indices below 8 is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-! ## What a point writes back -/

/-- The result array the claim names, on core `c`. -/
abbrev lossArray (c : Dev nD) : S4096x8192.Idx → EReal :=
  WeightedBce.loss (m ((c : Thread nD τ).loc main_arg0)) (m ((c : Thread nD τ).loc main_arg1)) (m ((c : Thread nD τ).loc main_arg2))

/-- Point `t` writes back block `t` of the loss array. -/
theorem flushed_eq (c : Dev nD) (t : Fin cfg0.N) :
    (dats m 0 c).flushed 3 t = ((cfg0.win 3).blk t).view.read (Elt Ideal) (lossArray m c) := by
  rw [Value.flushed3]
  obtain ⟨e00, e01, e10, e11, e20, e21, -, -⟩ := idx_facts t
  funext j
  refine (block_apply (iblk m c 0 t) (iblk m c 1 t) (iblk m c 2 t) j).trans ?_
  have hj0 : (j 0).val < 512 := (j 0).isLt
  have hj1 : (j 1).val < 1024 := (j 1).isLt
  have hp : iblk m c 0 t j = m ((c : Thread nD τ).loc main_arg0) (((cfg0.win 3).blk t).view.emb j) := by
    show V m c main_arg0 (((cfg0.win 0).blk t).view.emb j) = _
    rw [V_main_arg0]
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * (j 1).val = win0_3.index t (1 : Fin 2) * 1024 + 1 * (j 1).val; omega
  have hl : iblk m c 1 t j = m ((c : Thread nD τ).loc main_arg1) (((cfg0.win 3).blk t).view.emb j) := by
    show V m c main_arg1 (((cfg0.win 1).blk t).view.emb j) = _
    rw [V_main_arg1]
    refine congrArg _ (funext fun a => Fin.ext ?_)
    match a with
    | ⟨0, _⟩ => show win0_1.index t (0 : Fin 2) * 512 + 1 * (j 0).val = win0_3.index t (0 : Fin 2) * 512 + 1 * (j 0).val; omega
    | ⟨1, _⟩ => show win0_1.index t (1 : Fin 2) * 1024 + 1 * (j 1).val = win0_3.index t (1 : Fin 2) * 1024 + 1 * (j 1).val; omega
  have hw : iblk m c 2 t (ix2 (j 0 : Fin 512) (0 : Fin 1))
      = (m ((c : Thread nD τ).loc main_arg2) : S4096.Idx → EReal) (ix1 ((((cfg0.win 3).blk t).view.emb j) 0 : Fin 4096)) := by
    show (V m c main_v0 : S4096x1.Idx → EReal) (((cfg0.win 2).blk t).view.emb (ix2 (j 0 : Fin 512) (0 : Fin 1))) = _
    rw [weightColumn_apply]
    refine congrArg _ (congrArg ix1 (Fin.ext ?_))
    show win0_2.index t (0 : Fin 2) * 512 + 1 * (j 0).val = win0_3.index t (0 : Fin 2) * 512 + 1 * (j 0).val
    omega
  rw [hp, hl, hw]
  rfl

/-! ## The blocks tile the array -/

/-- An index of the array is in point `t`'s block iff each coordinate is in the block's range on its axis. -/
theorem mem_blk (t : Fin cfg0.N) (i : S4096x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- Entry (i, j) lies in the block of the point with block indices (i / 512, j / 1024), and that point writes back. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The array after the run -/

/-- After the last point the result array is the loss array. -/
theorem final (c : Dev nD) : (dats m 0 c).arrAt 3 cfg0.N = lossArray m c :=
  (dats m 0 c).arrAt_eq_of_cover 3 (lossArray m c) (fun t _ => flushed_eq m c t) covered

/-- Every weakly fair execution of the kernel program ends with the result array at the loss array and the three
    argument arrays as launched. -/
theorem run : θ_run defs (onTc (τ := τ) (main (F := Ideal))) ⟨m, fun _ => 0, ρ⟩ fun r => ∀ c : Dev nD,
      r.2.mem ((c : Thread nD τ).loc main_v1) = lossArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LossArray

end
-- ==== Proof.ReferenceArray.lean ====
/-
  The array the host program computes, as the same function of the argument arrays.

  The host program negates the predictions, takes log(1 + ·) and negates again; broadcasts the weight vector to a
  4096 x 1 column and that column along the rows, multiplies it into the logarithms of the predictions and negates;
  compares the labels with a broadcast zero; and selects between the two arrays. Read at an entry (i, j), every
  stage depends on the entry (i, j) of its operands, except the two broadcasts, which read the weight of row i.
  So the result at (i, j) is the loss element of `Loss.lean`, its negations spelt as negations.
-/
import proofs.«153647_j70128226009669_1_alg».proof.Proof.Gen.ReferenceIdeal.Read
import proofs.«153647_j70128226009669_1_alg».proof.Proof.Loss
import Idealize.ShloMosaic.Lib.ValueIdx

noncomputable section

namespace Cert.ReferenceIdeal.LossArray

open Cert.ReferenceIdeal Cert.ReferenceIdeal.Gen Cert.ReferenceIdeal.Read Idealize.ShloMosaic Idealize.ShloMosaic.ValueIdx

/-- The host program's last stage, as a function of the three argument arrays, is the loss array. -/
theorem result_eq (x0 : (⟨S4096x8192, .f32⟩ : BufTy).Contents (Elt Ideal)) (x1 : (⟨S4096x8192, .i32⟩ : BufTy).Contents (Elt Ideal))
    (x2 : (⟨S4096, .f32⟩ : BufTy).Contents (Elt Ideal)) :
    val_main_v10 (F := Ideal) x0 x1 x2 = WeightedBce.loss x0 x1 x2 := by
  funext i
  -- the two broadcasts read the weight vector at the row of `i`
  have hrow : idx_main_v3 (idx_main_v5 i) = ix1 (i 0 : Fin 4096) := funext fun a => match a with | ⟨0, _⟩ => rfl
  rw [val_main_v10_apply, val_main_v9_apply, val_main_v8_apply, val_main_c_apply, val_main_v2_apply, val_main_v1_apply,
    val_main_v0_apply, val_main_v7_apply, val_main_v6_apply, val_main_v5_apply, val_main_v3_apply, val_main_v4_apply, hrow]
  exact WeightedBce.elem_of_negations _ _ _

end Cert.ReferenceIdeal.LossArray

end
-- ==== Proof.lean ====
/-
  A weighted binary cross-entropy over 4096 rows of 8192 predictions: the result's entry (i, j) is
  `-log(1 - p)` where the label at (i, j) is 0 and `-(w_i · log p)` elsewhere, `p` the prediction at (i, j) and `w_i`
  the weight of row i.

  The kernel computes it block by block over an 8 x 8 grid (blocks of 512 rows by 1024 columns, the weights staged as
  a 512 x 1 column), each negation written `0 - x`; the host program computes it over the whole arrays, each negation
  written as a negation. On the extended reals `0 - x = -x` everywhere, the logarithms are the same functions on both
  sides and the product `w_i · log p` has its factors in the same order, so the two results are one array
  (`WeightedBce.loss`, Proof/Loss.lean) whatever the inputs hold: the precondition is not used.

  The kernel's array after its run is read off its frame run block by block (Proof/KernelArray.lean); the host
  program's is its run's composed term read at an index (Proof/ReferenceArray.lean). The kernel's idealization
  rewrote no operation, so `preserves` has nothing to state.
-/
import proofs.«153647_j70128226009669_1_alg».proof.Defs
import proofs.«153647_j70128226009669_1_alg».proof.Proof.Gen.Kernel
import proofs.«153647_j70128226009669_1_alg».proof.Proof.Gen.Kernel.Skeleton
import proofs.«153647_j70128226009669_1_alg».proof.Proof.Gen.Kernel.Launch
import proofs.«153647_j70128226009669_1_alg».proof.Proof.Gen.Kernel.Points
import proofs.«153647_j70128226009669_1_alg».proof.Proof.Gen.Kernel.Frame
import proofs.«153647_j70128226009669_1_alg».proof.Proof.Gen.KernelIdeal
import proofs.«153647_j70128226009669_1_alg».proof.Proof.Gen.KernelIdeal.Skeleton
import proofs.«153647_j70128226009669_1_alg».proof.Proof.Gen.KernelIdeal.Launch
import proofs.«153647_j70128226009669_1_alg».proof.Proof.Gen.KernelIdeal.Points
import proofs.«153647_j70128226009669_1_alg».proof.Proof.Gen.KernelIdeal.Frame
import proofs.«153647_j70128226009669_1_alg».proof.Proof.Gen.ReferenceIdeal
import proofs.«153647_j70128226009669_1_alg».proof.Proof.Gen.Pre_finite_inputs
import proofs.«153647_j70128226009669_1_alg».proof.Proof.Gen.KernelIdeal.Value
import proofs.«153647_j70128226009669_1_alg».proof.Proof.Gen.ReferenceIdeal.Run
import proofs.«153647_j70128226009669_1_alg».proof.Proof.Gen.ReferenceIdeal.Read
import proofs.«153647_j70128226009669_1_alg».proof.Proof.KernelArray
import proofs.«153647_j70128226009669_1_alg».proof.Proof.ReferenceArray
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The host program runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the loss array of those arguments. -/
theorem algebraic : Cert.algebraic_KernelIdeal_ReferenceIdeal := by
  intro m ρ m' ρ' _ hagree
  refine ⟨fun c => Cert.KernelIdeal.LossArray.lossArray m c, Cert.KernelIdeal.LossArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.LossArray.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
